-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S15200x128 : Shape := ⟨2, ![15200, 128]⟩

abbrev nBuf : Space → Nat
  | .hbm => 12
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S1x128, .f32⟩
  | .hbm, ⟨10, _⟩ => ⟨S100000x128, .f32⟩
  | .hbm, ⟨11, _⟩ => ⟨S100000x128, .f32⟩
  | .local _ .vmem, ⟨0, _⟩ => ⟨S15200x128, .f32⟩
  | .local _ .vmem, ⟨1, _⟩ => ⟨S15200x128, .f32⟩
  | .local _ .vmem, ⟨2, _⟩ => ⟨S15200x128, .f32⟩
  | .local _ .vmem, ⟨3, _⟩ => ⟨S15200x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S15200x128, .f32⟩
  | .local _ .vmem, ⟨9, _⟩ => ⟨S15200x128, .f32⟩
  | .local _ .vmem, ⟨10, _⟩ => ⟨S15200x128, .f32⟩
  | .local _ .vmem, ⟨11, _⟩ => ⟨S15200x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S15200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S15200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  shapeCasts_S128_S1x128 : S128.ShapeCasts S1x128
  inb_S15200x128_S15200x128_0_0 : ∀ a, (![0, 0] : Fin 2 → Nat) a + S15200x128.size a ≤ S15200x128.size a
  h_S15200x128 : 0 < S15200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S15200x128 : S1x128.Broadcasts S15200x128
  dot_S15200x128_S128x128_S15200x128_1_0_0_1_n_n_wf : DotDims.WF S15200x128 S128x128 S15200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S15200x128.size a < S100000x128.size a
  hwx0_0 : ∀ i : grid0.Coords, EltTy.bits .f32 = 32 ∨ (Rect.unit (s := S100000x128) (fun a => cc0_transform_0 i a * S15200x128.size a) (fun a => (Pipeline.Clip.of (cc0_transform_0 i a) (S15200x128.size a) (S100000x128.size a)).extent (S15200x128.size a)) fun a => Pipeline.Clip.inb (Pipeline.Clip.ok_of (hstart0_0 i a))).WholeWords (EltTy.packing .f32)
  hwxs0_0 : ∀ i : grid0.Coords, EltTy.bits .f32 = 32 ∨ (Rect.unit (s := S15200x128) (fun _ => 0) (fun a => (Pipeline.Clip.of (cc0_transform_0 i a) (S15200x128.size a) (S100000x128.size a)).extent (S15200x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S15200x128.size a < S100000x128.size a
  hwx0_1 : ∀ i : grid0.Coords, EltTy.bits .f32 = 32 ∨ (Rect.unit (s := S100000x128) (fun a => cc0_transform_1 i a * S15200x128.size a) (fun a => (Pipeline.Clip.of (cc0_transform_1 i a) (S15200x128.size a) (S100000x128.size a)).extent (S15200x128.size a)) fun a => Pipeline.Clip.inb (Pipeline.Clip.ok_of (hstart0_1 i a))).WholeWords (EltTy.packing .f32)
  hwxs0_1 : ∀ i : grid0.Coords, EltTy.bits .f32 = 32 ∨ (Rect.unit (s := S15200x128) (fun _ => 0) (fun a => (Pipeline.Clip.of (cc0_transform_1 i a) (S15200x128.size a) (S100000x128.size a)).extent (S15200x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S15200x128.size a < S100000x128.size a
  hwx0_6 : ∀ i : grid0.Coords, EltTy.bits .f32 = 32 ∨ (Rect.unit (s := S100000x128) (fun a => cc0_transform_6 i a * S15200x128.size a) (fun a => (Pipeline.Clip.of (cc0_transform_6 i a) (S15200x128.size a) (S100000x128.size a)).extent (S15200x128.size a)) fun a => Pipeline.Clip.inb (Pipeline.Clip.ok_of (hstart0_6 i a))).WholeWords (EltTy.packing .f32)
  hwxs0_6 : ∀ i : grid0.Coords, EltTy.bits .f32 = 32 ∨ (Rect.unit (s := S15200x128) (fun _ => 0) (fun a => (Pipeline.Clip.of (cc0_transform_6 i a) (S15200x128.size a) (S100000x128.size a)).extent (S15200x128.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S15200x128.size a < S100000x128.size a
  hwx0_7 : ∀ i : grid0.Coords, EltTy.bits .f32 = 32 ∨ (Rect.unit (s := S100000x128) (fun a => cc0_transform_7 i a * S15200x128.size a) (fun a => (Pipeline.Clip.of (cc0_transform_7 i a) (S15200x128.size a) (S100000x128.size a)).extent (S15200x128.size a)) fun a => Pipeline.Clip.inb (Pipeline.Clip.ok_of (hstart0_7 i a))).WholeWords (EltTy.packing .f32)
  hwxs0_7 : ∀ i : grid0.Coords, EltTy.bits .f32 = 32 ∨ (Rect.unit (s := S15200x128) (fun _ => 0) (fun a => (Pipeline.Clip.of (cc0_transform_7 i a) (S15200x128.size a) (S100000x128.size a)).extent (S15200x128.size a)) fun a => (Nat.zero_add _).trans_le (Pipeline.Clip.extent_le (Pipeline.Clip.ok_of (hstart0_7 i a)))).WholeWords (EltTy.packing .f32)

variable [Facts₀]

def dot_S15200x128_S128x128_S15200x128_1_0_0_1_n_n : DotDims S15200x128 S128x128 S15200x128 where
  lhsContracting := [1]
  rhsContracting := [0]
  lhsNonContracting := [0]
  rhsNonContracting := [1]
  lhsBatch := []
  rhsBatch := []
  wf := dot_S15200x128_S128x128_S15200x128_1_0_0_1_n_n_wf

abbrev win0_0 : Pipeline.Window sig grid0 :=
  Pipeline.Window.ofSpecClip (Memref.whole main_arg0) S15200x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S15200x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v4_0) S15200x128.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v4_1) S15200x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BodyBits.lean ====
/-
  One grid step of the kernel, as a statement about its eight staging buffers.

  The step reads a block of 15200 rows of each table (x, y), the two transposed weights (w, v : 128 × 128) and the two
  biases as single rows (b, e : 1 × 128), and overwrites the two result blocks with

      x · w + b      and      y · v + e

  (the product into a zero accumulator, the bias row repeated down the 15200 rows). It reads each result buffer once
  before overwriting it and uses nothing of what it read. So: whatever the six input buffers hold they still hold
  afterwards, and the two result buffers hold these two expressions of the inputs, whatever they held before.
  Stated for buffers given as whole memrefs, so that it applies at either buffer of a double-buffered window.
-/
import proofs.«132091_g3745211482543_cont_8to1_b_1275_10_alg».proof.Proof.Gen.Kernel.Frame
import proofs.«132091_g3745211482543_cont_8to1_b_1275_10_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- The body's accesses: each is the whole of its buffer. -/
abbrev rX : Rect S15200x128 := Rect.unit (s := S15200x128) ![0, 0] S15200x128.size inb_S15200x128_S15200x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

theorem zero2 : (![0, 0] : Fin 2 → Nat) = fun _ => 0 := funext fun a => by fin_cases a <;> rfl

/-- The first result block after the step: x · w + b of what the three input buffers hold. -/
def outA (x : Vec F S15200x128 .f32) (w : Vec F S128x128 .f32) (b : Vec F S1x128 .f32) : Vec F S15200x128 .f32 :=
  View.canon [⟨rX, k0_pay1 (View.ld x rX) (View.ld w rW) (View.ld b rB)⟩]

/-- The second result block after the step: y · v + e. -/
def outB (y : Vec F S15200x128 .f32) (v : Vec F S128x128 .f32) (e : Vec F S1x128 .f32) : Vec F S15200x128 .f32 :=
  View.canon [⟨rX, k0_pay2 (View.ld y rX) (View.ld v rW) (View.ld e rB)⟩]

/-- The one store into a result buffer writes every entry of it. -/
theorem coverX (p0 : Vec F S15200x128 .f32) (y : S15200x128.Idx) :
    ∃ pc ∈ ([⟨rX, p0⟩] : List (View.Piece (Elt F) S15200x128 .f32)), y ∈ pc.1.set :=
  ⟨_, List.mem_singleton_self _, View.mem_set_unit_zero zero2 inb_S15200x128_S15200x128_0_0 y⟩

/-- The two result blocks are the step's two expressions, plainly. -/
theorem outA_eq (x : Vec F S15200x128 .f32) (w : Vec F S128x128 .f32) (b : Vec F S1x128 .f32) :
    outA x w b = k0_pay1 x w b := by
  unfold outA
  rw [View.canon_unit_zero zero2, View.ld_unit_zero (S := S15200x128) zero2, View.ld_unit_zero (S := S128x128) zero2,
    View.ld_unit_zero (S := S1x128) zero2]

theorem outB_eq (y : Vec F S15200x128 .f32) (v : Vec F S128x128 .f32) (e : Vec F S1x128 .f32) :
    outB y v e = k0_pay2 y v e := by
  unfold outB
  rw [View.canon_unit_zero zero2, View.ld_unit_zero (S := S15200x128) zero2, View.ld_unit_zero (S := S128x128) zero2,
    View.ld_unit_zero (S := S1x128) zero2]

set_option maxHeartbeats 1000000 in
/-- The step on whole staging memrefs: the six inputs at contents x, y, w, b, v, e and the two results at anything run
    to the inputs as they were and the results at x · w + b and y · v + e. -/
theorem sound_kernel (c : Dev nD) (E : Set ℕ) (i : grid0.Coords)
    (arg1 : Memref sig .tc .vmem S15200x128 .f32) (harg1 : arg1.IsWhole) (arg2 : Memref sig .tc .vmem S15200x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S15200x128 .f32) (harg7 : arg7.IsWhole) (arg8 : Memref sig .tc .vmem S15200x128 .f32) (harg8 : arg8.IsWhole)
    (x y : Vec F S15200x128 .f32) (w : Vec F S128x128 .f32) (b : Vec F S1x128 .f32) (v : Vec F S128x128 .f32) (e : Vec F S1x128 .f32)
    (K : PUnit → sProp 𝕄) :
    iprop(owns (c : Thread nD τ) arg1 fullShare x ∗ owns (c : Thread nD τ) arg2 fullShare y
        ∗ owns (c : Thread nD τ) arg3 fullShare w ∗ owns (c : Thread nD τ) arg4 fullShare b
        ∗ owns (c : Thread nD τ) arg5 fullShare v ∗ owns (c : Thread nD τ) arg6 fullShare e
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare y
            ∗ owns (c : Thread nD τ) arg3 fullShare w ∗ owns (c : Thread nD τ) arg4 fullShare b
            ∗ owns (c : Thread nD τ) arg5 fullShare v ∗ owns (c : Thread nD τ) arg6 fullShare e
            ∗ owns (c : Thread nD τ) arg7 fullShare (outA x w b) ∗ owns (c : Thread nD τ) arg8 fullShare (outB y v e)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  · iexists _; isplitr
    swap; · iexact H8
    ipureintro
    exact View.read_writes_eq_canon _ _ _ (coverX _)

end Cert.Kernel.Body

end
-- ==== Proof.FrameBits.lean ====
/-
  The word-level kernel runs to the end, faults nowhere and leaves its six arguments as they were.

  Nothing is claimed of what it writes into its two results, so the two result windows are left unnamed: each is
  handed to a step holding anything and taken back holding anything. Of the other six buffers a step is told what
  they hold — a table's block on the rows the fetch brought and anything below, a weight or a bias whole — and leaves
  them so. The tables are read through their windows and never written; the weights and biases the kernel uses are
  the host's transposes and one-row layouts of the arguments, which are other arrays, so the arguments themselves are
  touched by nothing. Stated for any float instance; the certificate uses it at the word level.
-/
import proofs.«132091_g3745211482543_cont_8to1_b_1275_10_alg».proof.Proof.BodyBits
import Idealize.ShloMosaic.Lib.Pipeline.Frame

set_option maxRecDepth 16384

noncomputable section

namespace Cert.Kernel.FrameB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen Cert.Kernel.Body
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The word a buffer is filled out with below the rows a cut fetch brings (nothing reads it). -/
abbrev pad : S15200x128.Idx → Elt F .f32 := fun _ => Scalar.ofBits .f32 0#32

def xfull (c : Dev nD) (t : Fin cfg0.N) : Vec F S15200x128 .f32 :=
  win0_0.fill (grid0.coords t) pad (iblk m c 0 t)
def yfull (c : Dev nD) (t : Fin cfg0.N) : Vec F S15200x128 .f32 :=
  win0_1.fill (grid0.coords t) pad (iblk m c 1 t)

/-- The windows whose contents the claim does not read: the two results. -/
abbrev unread : Fin 8 → Bool := fun
  | 0 => false | 1 => false | 2 => false | 3 => false | 4 => false | 5 => false | 6 => true | 7 => true
  | ⟨_ + 8, h⟩ => absurd h (Nat.not_lt.2 (Nat.le_add_left _ _))

/-- The proof data: the arrays as the region finds them; after a step the tables' buffers at their blocks (filled
    out), the weights' and biases' at themselves; the results' entries are placeholders nothing reads. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => yfull m c t
    | ⟨2, _⟩ => iblk m c 2 t
    | ⟨3, _⟩ => iblk m c 3 t
    | ⟨4, _⟩ => iblk m c 4 t
    | ⟨5, _⟩ => iblk m c 5 t
    | ⟨6, _⟩ => pad
    | ⟨7, _⟩ => pad
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = yfull m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-! ## What a step finds in the six buffers it is told about -/

theorem before0_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, the results unread -/

theorem body_obligation (c : Dev nD) :
    BodyObligationLoose (dats m 0 c) (defs₀ (F := F)) Variants.none () Set.univ unread := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%X6, H6⟩, ⟨%X7, H7⟩⟩
  rw [before0_0 m c t d0, before0_1 m c t d1, before0_2 m c t d2, before0_3 m c t d3, before0_4 m c t d4,
    before0_5 m c t d5]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [after0_0]; unfold xfull; rw [Window.cut_fill]
    iexact H0
  isplitl [H1]
  · iexists d1
    rw [after0_1]; unfold yfull; rw [Window.cut_fill]
    iexact H1
  isplitl [H2]; · rw [after0_2]; iexact H2
  isplitl [H3]; · rw [after0_3]; iexact H3
  isplitl [H4]; · rw [after0_4]; iexact H4
  isplitl [H5]; · rw [after0_5]; iexact H5
  isplitl [H6]; · iexists _; iexact H6
  · iexists _; iexact H7

/-! ## The run and the frame -/

set_option backward.isDefEq.respectTransparency.types false in
theorem run_main : θ_run defs (onTc (τ := τ) (main (F := F))) (s₀ m ρ)
    (RDat.FramePost cfg0 (fun c => (dats m 0 c).toRForget unread) (V m)) :=
  Pipeline.RDat.θ_run_frame cfgs (0 : Fin 1) launch0 defs₀ Variants.none (fun c => (dats m 0 c).toRForget unread) m ρ main
    (hbody := fun c => (body_obligation m c).toRForget)
    (hshare := fun c w => (dats m 0 c).share_full (fun _ => rfl) w)
    (howed := fun _ _ => rfl) (V := V m) (hmain := hmain m Variants.none) (hA := A_eq m) (hΦ := fun _ _ => rfl)

/-- The frame: every weakly fair execution terminates without a fault and the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.arr_in c 0 rfl).trans ((A_eq m c 0).trans (V_main_arg0 m c)),
      (h.arr_in c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel.FrameB

end
-- ==== Proof.BodyIdeal.lean ====
/-
  One grid step of the kernel, as a statement about its eight staging buffers.

  The step reads a block of 15200 rows of each table (x, y), the two transposed weights (w, v : 128 × 128) and the two
  biases as single rows (b, e : 1 × 128), and overwrites the two result blocks with

      x · w + b      and      y · v + e

  (the product into a zero accumulator, the bias row repeated down the 15200 rows). It reads each result buffer once
  before overwriting it and uses nothing of what it read. So: whatever the six input buffers hold they still hold
  afterwards, and the two result buffers hold these two expressions of the inputs, whatever they held before.
  Stated for buffers given as whole memrefs, so that it applies at either buffer of a double-buffered window.
-/
import proofs.«132091_g3745211482543_cont_8to1_b_1275_10_alg».proof.Proof.Gen.KernelIdeal.Frame
import proofs.«132091_g3745211482543_cont_8to1_b_1275_10_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- The body's accesses: each is the whole of its buffer. -/
abbrev rX : Rect S15200x128 := Rect.unit (s := S15200x128) ![0, 0] S15200x128.size inb_S15200x128_S15200x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

theorem zero2 : (![0, 0] : Fin 2 → Nat) = fun _ => 0 := funext fun a => by fin_cases a <;> rfl

/-- The first result block after the step: x · w + b of what the three input buffers hold. -/
def outA (x : Vec F S15200x128 .f32) (w : Vec F S128x128 .f32) (b : Vec F S1x128 .f32) : Vec F S15200x128 .f32 :=
  View.canon [⟨rX, k0_pay1 (View.ld x rX) (View.ld w rW) (View.ld b rB)⟩]

/-- The second result block after the step: y · v + e. -/
def outB (y : Vec F S15200x128 .f32) (v : Vec F S128x128 .f32) (e : Vec F S1x128 .f32) : Vec F S15200x128 .f32 :=
  View.canon [⟨rX, k0_pay2 (View.ld y rX) (View.ld v rW) (View.ld e rB)⟩]

/-- The one store into a result buffer writes every entry of it. -/
theorem coverX (p0 : Vec F S15200x128 .f32) (y : S15200x128.Idx) :
    ∃ pc ∈ ([⟨rX, p0⟩] : List (View.Piece (Elt F) S15200x128 .f32)), y ∈ pc.1.set :=
  ⟨_, List.mem_singleton_self _, View.mem_set_unit_zero zero2 inb_S15200x128_S15200x128_0_0 y⟩

/-- The two result blocks are the step's two expressions, plainly. -/
theorem outA_eq (x : Vec F S15200x128 .f32) (w : Vec F S128x128 .f32) (b : Vec F S1x128 .f32) :
    outA x w b = k0_pay1 x w b := by
  unfold outA
  rw [View.canon_unit_zero zero2, View.ld_unit_zero (S := S15200x128) zero2, View.ld_unit_zero (S := S128x128) zero2,
    View.ld_unit_zero (S := S1x128) zero2]

theorem outB_eq (y : Vec F S15200x128 .f32) (v : Vec F S128x128 .f32) (e : Vec F S1x128 .f32) :
    outB y v e = k0_pay2 y v e := by
  unfold outB
  rw [View.canon_unit_zero zero2, View.ld_unit_zero (S := S15200x128) zero2, View.ld_unit_zero (S := S128x128) zero2,
    View.ld_unit_zero (S := S1x128) zero2]

set_option maxHeartbeats 1000000 in
/-- The step on whole staging memrefs: the six inputs at contents x, y, w, b, v, e and the two results at anything run
    to the inputs as they were and the results at x · w + b and y · v + e. -/
theorem sound_kernel (c : Dev nD) (E : Set ℕ) (i : grid0.Coords)
    (arg1 : Memref sig .tc .vmem S15200x128 .f32) (harg1 : arg1.IsWhole) (arg2 : Memref sig .tc .vmem S15200x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S15200x128 .f32) (harg7 : arg7.IsWhole) (arg8 : Memref sig .tc .vmem S15200x128 .f32) (harg8 : arg8.IsWhole)
    (x y : Vec F S15200x128 .f32) (w : Vec F S128x128 .f32) (b : Vec F S1x128 .f32) (v : Vec F S128x128 .f32) (e : Vec F S1x128 .f32)
    (K : PUnit → sProp 𝕄) :
    iprop(owns (c : Thread nD τ) arg1 fullShare x ∗ owns (c : Thread nD τ) arg2 fullShare y
        ∗ owns (c : Thread nD τ) arg3 fullShare w ∗ owns (c : Thread nD τ) arg4 fullShare b
        ∗ owns (c : Thread nD τ) arg5 fullShare v ∗ owns (c : Thread nD τ) arg6 fullShare e
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare y
            ∗ owns (c : Thread nD τ) arg3 fullShare w ∗ owns (c : Thread nD τ) arg4 fullShare b
            ∗ owns (c : Thread nD τ) arg5 fullShare v ∗ owns (c : Thread nD τ) arg6 fullShare e
            ∗ owns (c : Thread nD τ) arg7 fullShare (outA x w b) ∗ owns (c : Thread nD τ) arg8 fullShare (outB y v e)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverX _)
  · iexists _; isplitr
    swap; · iexact H8
    ipureintro
    exact View.read_writes_eq_canon _ _ _ (coverX _)

end Cert.KernelIdeal.Body

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.PayloadIdeal.lean ====
/-
  The step's two expressions read at one entry, over the extended reals.

  The product into a zero accumulator is, at entry (r, j), the plain sum over the shared axis of the left operand's
  row r against the right operand's column j; the shape cast to the same shape changes nothing; the bias row repeated
  down the rows has, at (r, j), the row's entry j. So at (r, j) the step's first expression is

      (∑ q < 128, x (r, q) · w (q, j)) + b (0, j),

  and it reads x in row r only: two blocks that agree on a row give the same result row.
-/
import proofs.«132091_g3745211482543_cont_8to1_b_1275_10_alg».proof.Proof.Gen.KernelIdeal.Skeleton
import proofs.«132091_g3745211482543_cont_8to1_b_1275_10_alg».proof.Proof.LibDotRowsCols
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Lib.DotRowsCols

/-- The step's product is rows by columns: it contracts the block's columns with the weight's rows. -/
theorem rowsCols : RowsCols dot_S15200x128_S128x128_S15200x128_1_0_0_1_n_n := ⟨rfl, rfl, rfl, rfl, rfl, rfl⟩

/-- The bias row repeated down the block's rows: entry (r, j) is the row's entry j. -/
theorem bias_apply (b : Vec Ideal S1x128 .f32) (j : S15200x128.Idx) :
    broadcastTo S15200x128 (shapeCast S1x128 b shapeCasts_S1x128_S1x128) broadcasts_S1x128_S15200x128 j
      = b (ix2 (0 : Fin 1) (j 1)) := by
  rw [shapeCast_self]
  exact broadcastTo_apply b broadcasts_S1x128_S15200x128 j (ix2 (0 : Fin 1) (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The first expression at an entry. -/
theorem pay1_apply (x : Vec Ideal S15200x128 .f32) (w : Vec Ideal S128x128 .f32) (b : Vec Ideal S1x128 .f32)
    (j : S15200x128.Idx) :
    k0_pay1 (F := Ideal) x w b j = (∑ q : Fin 128, x (ix2 (j 0) q) * w (ix2 q (j 1))) + b (ix2 (0 : Fin 1) (j 1)) := by
  unfold k0_pay1
  rw [addf_apply, bias_apply, shapeCast_self, rowsCols.matmul_zero_apply]

/-- The second expression at an entry: the same function of its own three operands. -/
theorem pay2_apply (y : Vec Ideal S15200x128 .f32) (v : Vec Ideal S128x128 .f32) (e : Vec Ideal S1x128 .f32)
    (j : S15200x128.Idx) :
    k0_pay2 (F := Ideal) y v e j = (∑ q : Fin 128, y (ix2 (j 0) q) * v (ix2 q (j 1))) + e (ix2 (0 : Fin 1) (j 1)) := by
  unfold k0_pay2
  rw [addf_apply, bias_apply, shapeCast_self, rowsCols.matmul_zero_apply]

/-- A result row depends on the same row of the block only. -/
theorem pay1_congr_row (x x' : Vec Ideal S15200x128 .f32) (w : Vec Ideal S128x128 .f32) (b : Vec Ideal S1x128 .f32)
    (j : S15200x128.Idx) (h : ∀ q : Fin 128, x (ix2 (j 0) q) = x' (ix2 (j 0) q)) :
    k0_pay1 (F := Ideal) x w b j = k0_pay1 (F := Ideal) x' w b j := by
  rw [pay1_apply, pay1_apply]
  exact congrArg (· + _) (Finset.sum_congr rfl fun q _ => by rw [h q])

theorem pay2_congr_row (y y' : Vec Ideal S15200x128 .f32) (v : Vec Ideal S128x128 .f32) (e : Vec Ideal S1x128 .f32)
    (j : S15200x128.Idx) (h : ∀ q : Fin 128, y (ix2 (j 0) q) = y' (ix2 (j 0) q)) :
    k0_pay2 (F := Ideal) y v e j = k0_pay2 (F := Ideal) y' v e j := by
  rw [pay2_apply, pay2_apply]
  exact congrArg (· + _) (Finset.sum_congr rfl fun q _ => by rw [h q])

end Cert.KernelIdeal.Payload

end
-- ==== Proof.RunIdeal.lean ====
/-
  The idealized kernel's run, with its two result arrays named.

  The grid has seven steps; step t works on rows 15200·t … 15200·t + 15199 of the tables. Seven blocks are 106400 rows
  and the tables have 100000, so the last block reaches 6400 rows past the end: its fetch brings in the 8800 rows that
  exist and leaves the rest of the buffer at words nobody chose, and its write-back stores the first 8800 rows only.
  The proof data therefore name every buffer on the rows a transfer moves and nothing else: a table's buffer holds its
  block there, filled out below with zeros for definiteness; a result's buffer holds the step's expression of that.
  Because a result row depends on the same row of the block only, the rows that are moved do not depend on how the
  block was filled out — which is what the body obligation asks of a buffer whose window is cut at the array's end.
  The weights and biases are fetched once, whole, and stay.
-/
import proofs.«132091_g3745211482543_cont_8to1_b_1275_10_alg».proof.Proof.BodyIdeal
import proofs.«132091_g3745211482543_cont_8to1_b_1275_10_alg».proof.Proof.PayloadIdeal
import Idealize.ShloMosaic.Lib.Pipeline.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Body Cert.KernelIdeal.Payload
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

/-- The word a buffer is filled out with below the rows a cut fetch brings: zero (nothing reads it). -/
abbrev pad : S15200x128.Idx → Elt Ideal .f32 := fun _ => (0 : EReal)

/-- The first table's block at step t, filled out to the buffer's 15200 rows; -/
def xfull (c : Dev nD) (t : Fin cfg0.N) : Vec Ideal S15200x128 .f32 :=
  win0_0.fill (grid0.coords t) pad (iblk m c 0 t)
/-- the second table's. -/
def yfull (c : Dev nD) (t : Fin cfg0.N) : Vec Ideal S15200x128 .f32 :=
  win0_1.fill (grid0.coords t) pad (iblk m c 1 t)

/-- The proof data of the one pipeline on core c: the arrays as the region finds them; after step t the tables'
    buffers at their blocks (filled out), the weights' and biases' at themselves, the results' at the step's two
    expressions of those; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => yfull m c t
    | ⟨2, _⟩ => iblk m c 2 t
    | ⟨3, _⟩ => iblk m c 3 t
    | ⟨4, _⟩ => iblk m c 4 t
    | ⟨5, _⟩ => iblk m c 5 t
    | ⟨6, _⟩ => outA (xfull m c t) (iblk m c 2 t) (iblk m c 3 t)
    | ⟨7, _⟩ => outB (yfull m c t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = yfull m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = outA (xfull m c t) (iblk m c 2 t) (iblk m c 3 t) := by dsimp only [dats]
theorem after0_7 (c : Dev nD) (t : Fin cfg0.N) :
    (dats m 0 c).after 7 t = outB (yfull m c t) (iblk m c 4 t) (iblk m c 5 t) := by dsimp only [dats]

/-! ## What the step finds in each buffer -/

/-- A table's buffer, fetched at every step: its block on the rows the fetch brings, anything below. -/
theorem before0_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]

/-- A weight's or bias's buffer: the whole array, fetched at the first step and left in place. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A result's buffer, written back after every step: anything. -/
theorem before0_6 (c : Dev nD) (t : Fin cfg0.N) (d) : (dats m 0 c).before 6 t d = d :=
  (dats m 0 c).before_out_reset 6 rfl t
    (by by_cases h : t.val = 0
        · exact .inl h
        · exact .inr ⟨h, flush0_6 _⟩) d
theorem before0_7 (c : Dev nD) (t : Fin cfg0.N) (d) : (dats m 0 c).before 7 t d = d :=
  (dats m 0 c).before_out_reset 7 rfl t
    (by by_cases h : t.val = 0
        · exact .inl h
        · exact .inr ⟨h, flush0_7 _⟩) d

/-! ## The moved rows of a result do not depend on how the table's block was filled out -/

/-- Every step moves all 128 columns of a table's block (only rows are cut). -/
theorem cols0 : ∀ t : Fin cfg0.N, win0_0.xsize (grid0.coords t) 1 = 128 :=
  (by decide +kernel : ∀ t : Fin grid0.N, win0_0.xsize (grid0.coords t) 1 = 128)
theorem cols1 : ∀ t : Fin cfg0.N, win0_1.xsize (grid0.coords t) 1 = 128 :=
  (by decide +kernel : ∀ t : Fin grid0.N, win0_1.xsize (grid0.coords t) 1 = 128)
/-- A result's window is cut exactly as its table's. -/
theorem cut6 : ∀ t : Fin cfg0.N, win0_6.xsize (grid0.coords t) = win0_0.xsize (grid0.coords t) :=
  (by decide +kernel : ∀ t : Fin grid0.N, win0_6.xsize (grid0.coords t) = win0_0.xsize (grid0.coords t))
theorem cut7 : ∀ t : Fin cfg0.N, win0_7.xsize (grid0.coords t) = win0_1.xsize (grid0.coords t) :=
  (by decide +kernel : ∀ t : Fin grid0.N, win0_7.xsize (grid0.coords t) = win0_1.xsize (grid0.coords t))

/-- Two fillings of one block agree on every row the fetch brings, in all its columns. -/
theorem fill0_row (t : Fin cfg0.N) (d d' : S15200x128.Idx → Elt Ideal .f32) (g) (r : Fin 15200)
    (hr : r.val < win0_0.xsize (grid0.coords t) 0) (q : Fin 128) :
    win0_0.fill (grid0.coords t) d g (ix2 r q) = win0_0.fill (grid0.coords t) d' g (ix2 r q) := by
  have hm : win0_0.moved (grid0.coords t) (ix2 r q) = true := (win0_0.moved_iff _ _).mpr fun a => by
    match a with
    | ⟨0, _⟩ => exact hr
    | ⟨1, _⟩ => show q.val < win0_0.xsize (grid0.coords t) (1 : Fin 2); rw [cols0 t]; exact q.isLt
  unfold Window.fill; rw [dif_pos hm, dif_pos hm]
theorem fill1_row (t : Fin cfg0.N) (d d' : S15200x128.Idx → Elt Ideal .f32) (g) (r : Fin 15200)
    (hr : r.val < win0_1.xsize (grid0.coords t) 0) (q : Fin 128) :
    win0_1.fill (grid0.coords t) d g (ix2 r q) = win0_1.fill (grid0.coords t) d' g (ix2 r q) := by
  have hm : win0_1.moved (grid0.coords t) (ix2 r q) = true := (win0_1.moved_iff _ _).mpr fun a => by
    match a with
    | ⟨0, _⟩ => exact hr
    | ⟨1, _⟩ => show q.val < win0_1.xsize (grid0.coords t) (1 : Fin 2); rw [cols1 t]; exact q.isLt
  unfold Window.fill; rw [dif_pos hm, dif_pos hm]

/-- The rows of the first result that are written back are those of the named expression, however the table's
    block was filled out. -/
theorem cut_outA (c : Dev nD) (t : Fin cfg0.N) (d : S15200x128.Idx → Elt Ideal .f32) :
    win0_6.cut (grid0.coords t) (outA (win0_0.fill (grid0.coords t) d (iblk m c 0 t)) (iblk m c 2 t) (iblk m c 3 t))
      = win0_6.cut (grid0.coords t) (outA (xfull m c t) (iblk m c 2 t) (iblk m c 3 t)) := by
  funext j
  show outA _ _ _ (win0_6.xinj (grid0.coords t) j) = outA _ _ _ (win0_6.xinj (grid0.coords t) j)
  rw [outA_eq, outA_eq]
  refine pay1_congr_row _ _ _ _ _ fun q => ?_
  unfold xfull
  have hj : (j 0).val < win0_6.xsize (grid0.coords t) (0 : Fin 2) := (j 0).isLt
  rw [cut6 t] at hj
  exact fill0_row t d pad _ _ hj q
theorem cut_outB (c : Dev nD) (t : Fin cfg0.N) (d : S15200x128.Idx → Elt Ideal .f32) :
    win0_7.cut (grid0.coords t) (outB (win0_1.fill (grid0.coords t) d (iblk m c 1 t)) (iblk m c 4 t) (iblk m c 5 t))
      = win0_7.cut (grid0.coords t) (outB (yfull m c t) (iblk m c 4 t) (iblk m c 5 t)) := by
  funext j
  show outB _ _ _ (win0_7.xinj (grid0.coords t) j) = outB _ _ _ (win0_7.xinj (grid0.coords t) j)
  rw [outB_eq, outB_eq]
  refine pay2_congr_row _ _ _ _ _ fun q => ?_
  unfold yfull
  have hj : (j 0).val < win0_7.xsize (grid0.coords t) (0 : Fin 2) := (j 0).isLt
  rw [cut7 t] at hj
  exact fill1_row t d pad _ _ hj q

/-! ## The body obligation -/

/-- At every step: the tables' buffers arrive at their blocks filled out with anything, the weights' and biases' at
    themselves, the results' at anything; the step leaves the first six as they were and the results at its two
    expressions, which on the rows that are moved are the named ones. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4,
    before0_5 m c t d5, before0_6 m c t d6, before0_7 m c t d7]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [after0_0]; unfold xfull; rw [Window.cut_fill]
    iexact H0
  isplitl [H1]
  · iexists d1
    rw [after0_1]; unfold yfull; rw [Window.cut_fill]
    iexact H1
  isplitl [H2]; · rw [after0_2]; iexact H2
  isplitl [H3]; · rw [after0_3]; iexact H3
  isplitl [H4]; · rw [after0_4]; iexact H4
  isplitl [H5]; · rw [after0_5]; iexact H5
  isplitl [H6]
  · iexists outA (win0_0.fill (grid0.coords t) d0 (iblk m c 0 t)) (iblk m c 2 t) (iblk m c 3 t)
    rw [after0_6, win0_6.fill_congr_cut (grid0.coords t) (cut_outA m c t d0)]
    iexact H6
  · iexists outB (win0_1.fill (grid0.coords t) d1 (iblk m c 1 t)) (iblk m c 4 t) (iblk m c 5 t)
    rw [after0_7, win0_7.fill_congr_cut (grid0.coords t) (cut_outB m c t d1)]
    iexact H7

/-! ## The run -/

set_option backward.isDefEq.respectTransparency.types false in
/-- Every weakly fair execution of @main terminates, with every array of the pipeline at what the write-backs
    leave and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Run

end
-- ==== Proof.Spec.lean ====
/-
  What one bridge computes. For a table x of 100000 rows of 128 numbers, a 128 × 128 weight W and a bias b of 128
  numbers, row r of the result is  W · x_r + b : entry (r, j) is the inner product of row r of x with row j of W,
  plus b j,

      linear x W b (r, j) = (∑ k < 128, x (r, k) · W (j, k)) + b j

  over the extended reals. Both programs compute this for each of the two tables; a row of the result depends on the
  same row of x and on nothing else of x, which is what lets the rows be computed a block at a time.
-/
import Idealize.ShloMosaic.PureOps.Ideal
import Idealize.ShloMosaic.Lib.ValueIdx

noncomputable section

open scoped BigOperators

namespace Cert.Spec

open Idealize.ShloMosaic Idealize.ShloMosaic.ValueIdx

/-- Entry (r, j) of  x · Wᵀ + b : the inner product of row r of x with row j of W, plus b j. -/
def linear (x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => (∑ k : Fin 128, x (ix2 (i 0) k) * W (ix2 (i 1) k)) + b (ix1 (i 1))

theorem linear_apply (x : (⟨2, ![100000, 128]⟩ : Shape).Idx → EReal) (W : (⟨2, ![128, 128]⟩ : Shape).Idx → EReal)
    (b : (⟨1, ![128]⟩ : Shape).Idx → EReal) (r : Fin 100000) (j : Fin 128) :
    linear x W b (ix2 r j) = (∑ k : Fin 128, x (ix2 r k) * W (ix2 j k)) + b (ix1 j) := rfl

end Cert.Spec

end
-- ==== Proof.FinalIdeal.lean ====
/-
  The two result arrays after the idealized kernel's run are the specification of the arguments.

  Step t writes back rows 15200·t … of each result: all 15200 rows of its block for t < 6, the first 8800 for t = 6,
  where the array ends (15200·6 + 8800 = 100000). Row r of the block is row 15200·t + r of the array; the weight the
  kernel multiplies by is the transpose the host made before the call, so its entry (q, j) is W (j, q); the bias the
  host laid out as one row, so its entry (0, j) is b j. Hence what step t writes back at (r, j) is

      (∑ q, x (15200·t + r, q) · W (j, q)) + b j,

  the specification's entry (15200·t + r, j): each step writes back its block of ONE array, and the seven blocks'
  rows are all 100000 rows, so the array ends holding the specification everywhere.
-/
import proofs.«132091_g3745211482543_cont_8to1_b_1275_10_alg».proof.Proof.RunIdeal
import proofs.«132091_g3745211482543_cont_8to1_b_1275_10_alg».proof.Proof.Spec
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Cert.KernelIdeal.Body Cert.KernelIdeal.Payload Cert.KernelIdeal.Run
open Idealize.ShloMosaic.ValueIdx Idealize.ShloMosaic.StableHlo
open scoped BigOperators

variable (m : (ℓ : Loc nD τ sig) → Buf (Elt Ideal) ℓ) (ρ : Dev nD → PrngReg)

/-! ## What the host made before the call -/

theorem V_v0 (c : Dev nD) : (V m c main_v0 : S128x128.Idx → Elt Ideal .f32)
    = transpose S128x128 [1, 0] (m ((c : Thread nD τ).loc main_arg2)) transposes_S128x128_S128x128_1_0 := by
  dsimp only [V, hostOps0]; after_results
theorem V_v1 (c : Dev nD) : (V m c main_v1 : S1x128.Idx → Elt Ideal .f32)
    = shapeCast S1x128 (m ((c : Thread nD τ).loc main_arg3)) shapeCasts_S128_S1x128 := by
  dsimp only [V, hostOps0]; after_results; rfl
theorem V_v2 (c : Dev nD) : (V m c main_v2 : S128x128.Idx → Elt Ideal .f32)
    = transpose S128x128 [1, 0] (m ((c : Thread nD τ).loc main_arg4)) transposes_S128x128_S128x128_1_0 := by
  dsimp only [V, hostOps0]; after_results
theorem V_v3 (c : Dev nD) : (V m c main_v3 : S1x128.Idx → Elt Ideal .f32)
    = shapeCast S1x128 (m ((c : Thread nD τ).loc main_arg5)) shapeCasts_S128_S1x128 := by
  dsimp only [V, hostOps0]; after_results; rfl

/-! ## The printed index maps and cuts, decided over the seven steps -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_zero : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The rows a step moves: 8800 at the last step, 15200 before; always all 128 columns. -/
theorem rows6 : ∀ t : Fin cfg0.N,
    (t.val = 6 → win0_6.xsize (grid0.coords t) (0 : Fin 2) = 8800)
    ∧ (t.val ≠ 6 → win0_6.xsize (grid0.coords t) (0 : Fin 2) = 15200)
    ∧ win0_6.xsize (grid0.coords t) (1 : Fin 2) = 128 :=
  (by decide +kernel : ∀ t : Fin grid0.N, _)
theorem rows7 : ∀ t : Fin cfg0.N,
    (t.val = 6 → win0_7.xsize (grid0.coords t) (0 : Fin 2) = 8800)
    ∧ (t.val ≠ 6 → win0_7.xsize (grid0.coords t) (0 : Fin 2) = 15200)
    ∧ win0_7.xsize (grid0.coords t) (1 : Fin 2) = 128 :=
  (by decide +kernel : ∀ t : Fin grid0.N, _)

/-- A row a step moves is a row of the array. -/
theorem row_lt6 (t : Fin cfg0.N) (r : Nat) (hr : r < win0_6.xsize (grid0.coords t) (0 : Fin 2)) :
    t.val * 15200 + r < 100000 := by
  obtain ⟨h6, hn, -⟩ := rows6 t
  have ht : t.val < 7 := lt_of_lt_of_eq (show t.val < grid0.N from t.isLt) N_0
  by_cases e : t.val = 6
  · rw [h6 e] at hr; omega
  · rw [hn e] at hr; omega
theorem row_lt7 (t : Fin cfg0.N) (r : Nat) (hr : r < win0_7.xsize (grid0.coords t) (0 : Fin 2)) :
    t.val * 15200 + r < 100000 := by
  obtain ⟨h6, hn, -⟩ := rows7 t
  have ht : t.val < 7 := lt_of_lt_of_eq (show t.val < grid0.N from t.isLt) N_0
  by_cases e : t.val = 6
  · rw [h6 e] at hr; omega
  · rw [hn e] at hr; omega

/-! ## Each buffer read at an entry -/

/-- The transposed weight at (q, j) is the argument at (j, q). -/
theorem w_apply (c : Dev nD) (t : Fin cfg0.N) (q j : Fin 128) :
    iblk m c 2 t (ix2 q j) = m ((c : Thread nD τ).loc main_arg2) (ix2 j q) := by
  obtain ⟨e0, e1, -⟩ := idx_zero t
  unfold iblk
  show V m c main_v0 (((cfg0.win 2).blk t).view.emb (ix2 q j)) = _
  have he : ((cfg0.win 2).blk t).view.emb (ix2 q j) = ix2 q j := by
    funext a; apply Fin.ext
    match a with
    | ⟨0, _⟩ => show win0_2.index t (0 : Fin 2) * 128 + 1 * q.val = q.val; rw [e0]; omega
    | ⟨1, _⟩ => show win0_2.index t (1 : Fin 2) * 128 + 1 * j.val = j.val; rw [e1]; omega
  rw [he, V_v0]
  exact transpose_apply [1, 0] _ transposes_S128x128_S128x128_1_0 (ix2 q j) (ix2 j q) (fun b => match b with
    | ⟨0, _⟩ => rfl
    | ⟨1, _⟩ => rfl)
theorem v_apply (c : Dev nD) (t : Fin cfg0.N) (q j : Fin 128) :
    iblk m c 4 t (ix2 q j) = m ((c : Thread nD τ).loc main_arg4) (ix2 j q) := by
  obtain ⟨-, -, -, -, e0, e1, -⟩ := idx_zero t
  unfold iblk
  show V m c main_v2 (((cfg0.win 4).blk t).view.emb (ix2 q j)) = _
  have he : ((cfg0.win 4).blk t).view.emb (ix2 q j) = ix2 q j := by
    funext a; apply Fin.ext
    match a with
    | ⟨0, _⟩ => show win0_4.index t (0 : Fin 2) * 128 + 1 * q.val = q.val; rw [e0]; omega
    | ⟨1, _⟩ => show win0_4.index t (1 : Fin 2) * 128 + 1 * j.val = j.val; rw [e1]; omega
  rw [he, V_v2]
  exact transpose_apply [1, 0] _ transposes_S128x128_S128x128_1_0 (ix2 q j) (ix2 j q) (fun b => match b with
    | ⟨0, _⟩ => rfl
    | ⟨1, _⟩ => rfl)

/-- The bias laid out as one row: entry (0, j) is the argument's entry j. -/
theorem b_apply (c : Dev nD) (t : Fin cfg0.N) (j : Fin 128) :
    iblk m c 3 t (ix2 (0 : Fin 1) j) = m ((c : Thread nD τ).loc main_arg3) (ix1 j) := by
  obtain ⟨-, -, e0, e1, -⟩ := idx_zero t
  unfold iblk
  show V m c main_v1 (((cfg0.win 3).blk t).view.emb (ix2 (0 : Fin 1) j)) = _
  have he : ((cfg0.win 3).blk t).view.emb (ix2 (0 : Fin 1) j) = ix2 (0 : Fin 1) j := by
    funext a; apply Fin.ext
    match a with
    | ⟨0, _⟩ => show win0_3.index t (0 : Fin 2) * 1 + 1 * 0 = 0; rw [e0]
    | ⟨1, _⟩ => show win0_3.index t (1 : Fin 2) * 128 + 1 * j.val = j.val; rw [e1]; omega
  rw [he, V_v1]
  refine shapeCast_apply _ shapeCasts_S128_S1x128 (ix2 (0 : Fin 1) j) (ix1 j) ?_
  rw [Shape.rowMajor_val_one, Shape.rowMajor_val_two]
  show j.val = 0 * 128 + j.val
  omega
theorem e_apply (c : Dev nD) (t : Fin cfg0.N) (j : Fin 128) :
    iblk m c 5 t (ix2 (0 : Fin 1) j) = m ((c : Thread nD τ).loc main_arg5) (ix1 j) := by
  obtain ⟨-, -, -, -, -, -, e0, e1⟩ := idx_zero t
  unfold iblk
  show V m c main_v3 (((cfg0.win 5).blk t).view.emb (ix2 (0 : Fin 1) j)) = _
  have he : ((cfg0.win 5).blk t).view.emb (ix2 (0 : Fin 1) j) = ix2 (0 : Fin 1) j := by
    funext a; apply Fin.ext
    match a with
    | ⟨0, _⟩ => show win0_5.index t (0 : Fin 2) * 1 + 1 * 0 = 0; rw [e0]
    | ⟨1, _⟩ => show win0_5.index t (1 : Fin 2) * 128 + 1 * j.val = j.val; rw [e1]; omega
  rw [he, V_v3]
  refine shapeCast_apply _ shapeCasts_S128_S1x128 (ix2 (0 : Fin 1) j) (ix1 j) ?_
  rw [Shape.rowMajor_val_one, Shape.rowMajor_val_two]
  show j.val = 0 * 128 + j.val
  omega

/-- Row r of the first table's block at step t, on the rows the fetch brings, is row 15200·t + r of the table. -/
theorem x_apply (c : Dev nD) (t : Fin cfg0.N) (r : Fin 15200) (hr : r.val < win0_0.xsize (grid0.coords t) (0 : Fin 2))
    (h : t.val * 15200 + r.val < 100000) (q : Fin 128) :
    xfull m c t (ix2 r q) = m ((c : Thread nD τ).loc main_arg0) (ix2 ⟨t.val * 15200 + r.val, h⟩ q) := by
  obtain ⟨e0, e1, -⟩ := idx_facts t
  have hm : win0_0.moved (grid0.coords t) (ix2 r q) = true := (win0_0.moved_iff _ _).mpr fun a => by
    match a with
    | ⟨0, _⟩ => exact hr
    | ⟨1, _⟩ => show q.val < win0_0.xsize (grid0.coords t) (1 : Fin 2); rw [cols0 t]; exact q.isLt
  unfold xfull Window.fill
  rw [dif_pos hm]
  unfold iblk
  rw [← V_main_arg0 m c]
  show V m c main_arg0 (((cfg0.win 0).blk t).view.emb _) = V m c main_arg0 _
  refine congrArg _ (funext fun a => Fin.ext ?_)
  match a with
  | ⟨0, _⟩ => show win0_0.index t (0 : Fin 2) * 15200 + 1 * r.val = t.val * 15200 + r.val; rw [e0]; omega
  | ⟨1, _⟩ => show win0_0.index t (1 : Fin 2) * 128 + 1 * q.val = q.val; rw [e1]; omega
theorem y_apply (c : Dev nD) (t : Fin cfg0.N) (r : Fin 15200) (hr : r.val < win0_1.xsize (grid0.coords t) (0 : Fin 2))
    (h : t.val * 15200 + r.val < 100000) (q : Fin 128) :
    yfull m c t (ix2 r q) = m ((c : Thread nD τ).loc main_arg1) (ix2 ⟨t.val * 15200 + r.val, h⟩ q) := by
  obtain ⟨-, -, e0, e1, -⟩ := idx_facts t
  have hm : win0_1.moved (grid0.coords t) (ix2 r q) = true := (win0_1.moved_iff _ _).mpr fun a => by
    match a with
    | ⟨0, _⟩ => exact hr
    | ⟨1, _⟩ => show q.val < win0_1.xsize (grid0.coords t) (1 : Fin 2); rw [cols1 t]; exact q.isLt
  unfold yfull Window.fill
  rw [dif_pos hm]
  unfold iblk
  rw [← V_main_arg1 m c]
  show V m c main_arg1 (((cfg0.win 1).blk t).view.emb _) = V m c main_arg1 _
  refine congrArg _ (funext fun a => Fin.ext ?_)
  match a with
  | ⟨0, _⟩ => show win0_1.index t (0 : Fin 2) * 15200 + 1 * r.val = t.val * 15200 + r.val; rw [e0]; omega
  | ⟨1, _⟩ => show win0_1.index t (1 : Fin 2) * 128 + 1 * q.val = q.val; rw [e1]; omega

/-! ## What a step writes back is its block of the specification -/

/-- Where entry j of the block step t writes back sits in the first result array. -/
theorem emb6 (t : Fin cfg0.N) (j : (win0_6.xblock (grid0.coords t)).Idx) :
    ((cfg0.win 6).blk t).view.emb j
      = ix2 (⟨t.val * 15200 + (j 0).val, row_lt6 t _ (j 0).isLt⟩ : Fin 100000) (⟨(j 1).val, lt_of_lt_of_eq (show (j 1).val < win0_6.xsize (grid0.coords t) (1 : Fin 2) from (j 1).isLt) (rows6 t).2.2⟩ : Fin 128) := by
  obtain ⟨-, -, -, -, e0, e1, -⟩ := idx_facts t
  funext a; apply Fin.ext
  match a with
  | ⟨0, _⟩ => show win0_6.index t (0 : Fin 2) * 15200 + 1 * (j 0).val = t.val * 15200 + (j 0).val; rw [e0]; omega
  | ⟨1, _⟩ => show win0_6.index t (1 : Fin 2) * 128 + 1 * (j 1).val = (j 1).val; rw [e1]; omega
theorem emb7 (t : Fin cfg0.N) (j : (win0_7.xblock (grid0.coords t)).Idx) :
    ((cfg0.win 7).blk t).view.emb j
      = ix2 (⟨t.val * 15200 + (j 0).val, row_lt7 t _ (j 0).isLt⟩ : Fin 100000) (⟨(j 1).val, lt_of_lt_of_eq (show (j 1).val < win0_7.xsize (grid0.coords t) (1 : Fin 2) from (j 1).isLt) (rows7 t).2.2⟩ : Fin 128) := by
  obtain ⟨-, -, -, -, -, -, e0, e1⟩ := idx_facts t
  funext a; apply Fin.ext
  match a with
  | ⟨0, _⟩ => show win0_7.index t (0 : Fin 2) * 15200 + 1 * (j 0).val = t.val * 15200 + (j 0).val; rw [e0]; omega
  | ⟨1, _⟩ => show win0_7.index t (1 : Fin 2) * 128 + 1 * (j 1).val = (j 1).val; rw [e1]; omega

theorem flushed6_eq (c : Dev nD) (t : Fin cfg0.N) :
    (dats m 0 c).flushed 6 t = ((cfg0.win 6).blk t).view.read (Elt Ideal)
      (Cert.Spec.linear (m ((c : Thread nD τ).loc main_arg0)) (m ((c : Thread nD τ).loc main_arg2)) (m ((c : Thread nD τ).loc main_arg3))) := by
  show (cfg0.win 6).cut (grid0.coords t) ((dats m 0 c).after 6 t) = _
  rw [after0_6, outA_eq]
  funext j
  show k0_pay1 (F := Ideal) (xfull m c t) (iblk m c 2 t) (iblk m c 3 t) (win0_6.xinj (grid0.coords t) j)
    = Cert.Spec.linear _ _ _ (((cfg0.win 6).blk t).view.emb j)
  rw [pay1_apply, emb6 t j, Cert.Spec.linear_apply]
  refine congrArg₂ (· + ·) (Finset.sum_congr rfl fun q _ => congrArg₂ (· * ·) ?_ ?_) ?_
  · exact x_apply m c t _ (by
      have hj : (j 0).val < win0_6.xsize (grid0.coords t) (0 : Fin 2) := (j 0).isLt
      rw [cut6 t] at hj; exact hj) _ q
  · exact w_apply m c t q _
  · exact b_apply m c t _
theorem flushed7_eq (c : Dev nD) (t : Fin cfg0.N) :
    (dats m 0 c).flushed 7 t = ((cfg0.win 7).blk t).view.read (Elt Ideal)
      (Cert.Spec.linear (m ((c : Thread nD τ).loc main_arg1)) (m ((c : Thread nD τ).loc main_arg4)) (m ((c : Thread nD τ).loc main_arg5))) := by
  show (cfg0.win 7).cut (grid0.coords t) ((dats m 0 c).after 7 t) = _
  rw [after0_7, outB_eq]
  funext j
  show k0_pay2 (F := Ideal) (yfull m c t) (iblk m c 4 t) (iblk m c 5 t) (win0_7.xinj (grid0.coords t) j)
    = Cert.Spec.linear _ _ _ (((cfg0.win 7).blk t).view.emb j)
  rw [pay2_apply, emb7 t j, Cert.Spec.linear_apply]
  refine congrArg₂ (· + ·) (Finset.sum_congr rfl fun q _ => congrArg₂ (· * ·) ?_ ?_) ?_
  · exact y_apply m c t _ (by
      have hj : (j 0).val < win0_7.xsize (grid0.coords t) (0 : Fin 2) := (j 0).isLt
      rw [cut7 t] at hj; exact hj) _ q
  · exact v_apply m c t q _
  · exact e_apply m c t _

/-! ## The seven blocks' rows are all the rows -/

theorem mem_blk6 (t : Fin cfg0.N) (i : S100000x128.Idx) :
    i ∈ ((cfg0.win 6).blk t).view.set ↔ ∀ a : Fin 2, win0_6.index t a * S15200x128.size a ≤ (i a).val
      ∧ (i a).val < win0_6.index t a * S15200x128.size a + win0_6.xsize (grid0.coords t) a := by
  show i ∈ ((View.whole main_v4_0).slice (win0_6.rect t)).set ↔ _
  rw [View.set_slice_whole, Rect.mem_set_unit]
  exact Iff.rfl
theorem mem_blk7 (t : Fin cfg0.N) (i : S100000x128.Idx) :
    i ∈ ((cfg0.win 7).blk t).view.set ↔ ∀ a : Fin 2, win0_7.index t a * S15200x128.size a ≤ (i a).val
      ∧ (i a).val < win0_7.index t a * S15200x128.size a + win0_7.xsize (grid0.coords t) a := by
  show i ∈ ((View.whole main_v4_1).slice (win0_7.rect t)).set ↔ _
  rw [View.set_slice_whole, Rect.mem_set_unit]
  exact Iff.rfl

/-- Row r of the array is in the block of step r / 15200. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 15200, by rw [show cfg0.N = 7 from N_0]; omega⟩
  have htv : t.val = (i 0).val / 15200 := rfl
  obtain ⟨-, -, -, -, e0, e1, -⟩ := idx_facts t
  obtain ⟨h6, hn, hc⟩ := rows6 t
  refine ⟨t, flush0_6 t, (mem_blk6 t i).mpr fun a => ?_⟩
  match a with
  | ⟨0, _⟩ =>
    show win0_6.index t (0 : Fin 2) * 15200 ≤ (i 0).val ∧ (i 0).val < win0_6.index t (0 : Fin 2) * 15200 + win0_6.xsize (grid0.coords t) (0 : Fin 2)
    rw [e0]
    by_cases e : t.val = 6
    · rw [h6 e]; omega
    · rw [hn e]; omega
  | ⟨1, _⟩ =>
    show win0_6.index t (1 : Fin 2) * 128 ≤ (i 1).val ∧ (i 1).val < win0_6.index t (1 : Fin 2) * 128 + win0_6.xsize (grid0.coords t) (1 : Fin 2)
    rw [e1, hc]; omega
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 15200, by rw [show cfg0.N = 7 from N_0]; omega⟩
  have htv : t.val = (i 0).val / 15200 := rfl
  obtain ⟨-, -, -, -, -, -, e0, e1⟩ := idx_facts t
  obtain ⟨h6, hn, hc⟩ := rows7 t
  refine ⟨t, flush0_7 t, (mem_blk7 t i).mpr fun a => ?_⟩
  match a with
  | ⟨0, _⟩ =>
    show win0_7.index t (0 : Fin 2) * 15200 ≤ (i 0).val ∧ (i 0).val < win0_7.index t (0 : Fin 2) * 15200 + win0_7.xsize (grid0.coords t) (0 : Fin 2)
    rw [e0]
    by_cases e : t.val = 6
    · rw [h6 e]; omega
    · rw [hn e]; omega
  | ⟨1, _⟩ =>
    show win0_7.index t (1 : Fin 2) * 128 ≤ (i 1).val ∧ (i 1).val < win0_7.index t (1 : Fin 2) * 128 + win0_7.xsize (grid0.coords t) (1 : Fin 2)
    rw [e1, hc]; omega

/-! ## The arrays after the run -/

theorem final6 (c : Dev nD) : (dats m 0 c).arrAt 6 cfg0.N
    = Cert.Spec.linear (m ((c : Thread nD τ).loc main_arg0)) (m ((c : Thread nD τ).loc main_arg2)) (m ((c : Thread nD τ).loc main_arg3)) :=
  (dats m 0 c).arrAt_eq_of_cover 6 _ (fun t _ => flushed6_eq m c t) cover6
theorem final7 (c : Dev nD) : (dats m 0 c).arrAt 7 cfg0.N
    = Cert.Spec.linear (m ((c : Thread nD τ).loc main_arg1)) (m ((c : Thread nD τ).loc main_arg4)) (m ((c : Thread nD τ).loc main_arg5)) :=
  (dats m 0 c).arrAt_eq_of_cover 7 _ (fun t _ => flushed7_eq m c t) cover7

/-- The idealized kernel's run: both results at the specification of the arguments, the arguments unchanged. -/
theorem run : θ_run defs (onTc (τ := τ) (main (F := Ideal))) ⟨m, fun _ => 0, ρ⟩ fun r => ∀ c : Dev nD,
      r.2.mem ((c.tc : Thread nD τ).loc main_v4_0)
        = Cert.Spec.linear (m ((c : Thread nD τ).loc main_arg0)) (m ((c : Thread nD τ).loc main_arg2)) (m ((c : Thread nD τ).loc main_arg3))
      ∧ r.2.mem ((c.tc : Thread nD τ).loc main_v4_1)
        = Cert.Spec.linear (m ((c : Thread nD τ).loc main_arg1)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Final

end
-- ==== Proof.RefValue.lean ====
/-
  The reference computes the specification. Its first result is  dot_general(x, transpose W) + broadcast(broadcast b) :
  at entry (r, j) the product contracts column k of row r of x with row k of the transposed weight, whose entry (k, j)
  is W (j, k); the bias is first laid out as one row, then repeated down the rows, so entry (r, j) of it is b j. That
  is  (∑ k, x (r, k) · W (j, k)) + b j, the specification's entry. The second result is the same of the other table.
-/
import proofs.«132091_g3745211482543_cont_8to1_b_1275_10_alg».proof.Proof.Gen.ReferenceIdeal.Run
import proofs.«132091_g3745211482543_cont_8to1_b_1275_10_alg».proof.Proof.Gen.ReferenceIdeal.Read
import proofs.«132091_g3745211482543_cont_8to1_b_1275_10_alg».proof.Proof.Spec

noncomputable section

open scoped BigOperators

namespace Cert.RefValue

open Cert.ReferenceIdeal Cert.ReferenceIdeal.Read Idealize.ShloMosaic Idealize.ShloMosaic.ValueIdx

/-- The reference's first result, as a function of its three arguments, is the specification. -/
theorem ref_v4 (x0 : (⟨S100000x128, .f32⟩ : BufTy).Contents (Elt Ideal)) (x2 : (⟨S128x128, .f32⟩ : BufTy).Contents (Elt Ideal))
    (x3 : (⟨S128, .f32⟩ : BufTy).Contents (Elt Ideal)) :
    val_main_v4 (F := Ideal) x0 x2 x3 = Cert.Spec.linear x0 x2 x3 := by
  funext i
  -- the left operand is read at (row of i, k); the transposed weight at (k, column of i), which is W at (column of i, k)
  have el : ∀ k : Fin 128, lidx_main_v1 i k = ix2 (i 0) k := fun k => funext fun a => by
    match a with | ⟨0, _⟩ => rfl | ⟨1, _⟩ => rfl
  have er : ∀ k : Fin 128, idx_main_v0 (ridx_main_v1 i k) = ix2 (i 1) k := fun k => funext fun a => by
    match a with | ⟨0, _⟩ => rfl | ⟨1, _⟩ => rfl
  -- the twice-broadcast bias is read at the column of i
  have eb : idx_main_v2 (idx_main_v3 i) = ix1 (i 1) := funext fun a => by match a with | ⟨0, _⟩ => rfl
  rw [val_main_v4_apply, val_main_v1_apply, val_main_v3_apply, val_main_v2_apply]
  simp only [val_main_v0_apply, el, er, eb]
  rfl

/-- The reference's second result is the specification of the other table, weight and bias. -/
theorem ref_v9 (x1 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v9 (F := Ideal) x1 x4 x5 = Cert.Spec.linear x1 x4 x5 := by
  funext i
  have el : ∀ k : Fin 128, lidx_main_v6 i k = ix2 (i 0) k := fun k => funext fun a => by
    match a with | ⟨0, _⟩ => rfl | ⟨1, _⟩ => rfl
  have er : ∀ k : Fin 128, idx_main_v5 (ridx_main_v6 i k) = ix2 (i 1) k := fun k => funext fun a => by
    match a with | ⟨0, _⟩ => rfl | ⟨1, _⟩ => rfl
  have eb : idx_main_v7 (idx_main_v8 i) = ix1 (i 1) := funext fun a => by match a with | ⟨0, _⟩ => rfl
  rw [val_main_v9_apply, val_main_v6_apply, val_main_v8_apply, val_main_v7_apply]
  simp only [val_main_v5_apply, el, er, eb]
  rfl

end Cert.RefValue

end
-- ==== Proof.lean ====
/-
  Two bridges, each a row-wise affine map of a 100000 × 128 table: result = table · Wᵀ + b.

  The kernel computes them a block of 15200 rows at a time, seven blocks, the last reaching past the table's end and
  cut there; the reference computes each with one whole product. Over the extended reals both give, at entry (r, j),

      (∑ k < 128, table (r, k) · W (j, k)) + b j        (Cert.Spec.linear),

  the same finite sum on both sides, with no law of the extended reals used beyond reading each product at an entry.
  The idealized kernel's run with its results at this function is Cert.KernelIdeal.Final.run; the reference's run is
  its generated run, its result terms read index by index (Cert.RefValue). The three frames are these runs with the
  results dropped and, for the word-level kernel, a run that says nothing of the results (Cert.Kernel.FrameB.frame).
  The idealization rewrote nothing, so the preservation claim is trivial.
-/
import proofs.«132091_g3745211482543_cont_8to1_b_1275_10_alg».proof.Defs
import proofs.«132091_g3745211482543_cont_8to1_b_1275_10_alg».proof.Proof.Gen.Kernel
import proofs.«132091_g3745211482543_cont_8to1_b_1275_10_alg».proof.Proof.Gen.KernelIdeal
import proofs.«132091_g3745211482543_cont_8to1_b_1275_10_alg».proof.Proof.Gen.ReferenceIdeal
import proofs.«132091_g3745211482543_cont_8to1_b_1275_10_alg».proof.Proof.Gen.Pre_finite_inputs
import proofs.«132091_g3745211482543_cont_8to1_b_1275_10_alg».proof.Proof.Gen.ReferenceIdeal.Run
import proofs.«132091_g3745211482543_cont_8to1_b_1275_10_alg».proof.Proof.Gen.ReferenceIdeal.Read
import proofs.«132091_g3745211482543_cont_8to1_b_1275_10_alg».proof.Proof.FrameBits
import proofs.«132091_g3745211482543_cont_8to1_b_1275_10_alg».proof.Proof.FinalIdeal
import proofs.«132091_g3745211482543_cont_8to1_b_1275_10_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.FrameB.frame (F := Bits) m ρ

theorem frame_ki : Cert.frame_KernelIdeal := fun m ρ _ =>
  (θ_run Cert.KernelIdeal.defs _ _).mono (fun _ h c => (h c).2.2) (Cert.KernelIdeal.Final.run m ρ)

theorem frame_ri : Cert.frame_ReferenceIdeal := fun m ρ _ =>
  (θ_run Cert.ReferenceIdeal.defs _ _).mono (fun _ h c => (h c).2.2) (Cert.ReferenceIdeal.Value.run (F := Ideal) m ρ)

/-- Both programs end with each result at the specification of arguments that agree. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.RefValue.ref_v4 _ _ _).trans ?_
    rw [(hagree c).1, (hagree c).2.2.1, (hagree c).2.2.2.1]
  · refine (Cert.RefValue.ref_v9 _ _ _).trans ?_
    rw [(hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
